-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S8192x4096 : Shape := ⟨2, ![8192, 4096]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 36
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S8192x4096, .f32⟩
  | .hbm, ⟨31, _⟩ => ⟨S8192x4096, .bf16⟩
  | .hbm, ⟨32, _⟩ => ⟨S4096x4096, .bf16⟩
  | .hbm, ⟨33, _⟩ => ⟨S1x4096, .f32⟩
  | .hbm, ⟨34, _⟩ => ⟨S8192x4096, .f32⟩
  | .hbm, ⟨35, _⟩ => ⟨S4x2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  shapeCasts_S4096x1_S4096 : S4096x1.ShapeCasts S4096
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v18) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4x2048x4096, .f32⟩
  | .hbm, ⟨31, _⟩ => ⟨S1x1x4096, .f32⟩
  | .hbm, ⟨32, _⟩ => ⟨S4x2048x4096, .f32⟩
  | .hbm, ⟨33, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  shapeCasts_S4096x1_S4096 : S4096x1.ShapeCasts S4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.BodyCases.lean ====
/-
  What one run of the matmul body leaves behind, case by case, for the idealized kernel, at any float instance.

  The grid is 8 x 4 x 2: the last coordinate walks the two halves of the contraction axis. The body keeps a
  [1024, 1024] accumulator in a scratch buffer that lives across grid points.
    * Where the last coordinate is 0 the body first stores the zero block into the accumulator, then adds to it the
      product of the two operand blocks: the accumulator ends at `product + 0-block` (`k0_pay2 x w k0_pay1`); the
      output block is not touched.
    * Where the last coordinate is 1 the body adds the product of the operand blocks to what the accumulator held
      (`k0_pay2 x w acc`), and stores that plus the bias row, repeated down the rows, into the output block
      (`k0_pay3 (k0_pay2 x w acc) b`).
  Each of the three facts is the read-back of the covering stores the body's run found: a store over the whole
  buffer at offset zero leaves its payload, and a load of the whole buffer after such a store reads that payload.
-/
import proofs.«107363_j15367392985733_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyCases

open Cert.KernelIdeal Cert.KernelIdeal.Gen

variable {F : FTy → Type} [FloatOps F]

/-- The offset of every access of the body: the origin. -/
theorem origin : (![0, 0] : Fin 2 → Nat) = fun _ => 0 := funext fun a => by fin_cases a <;> rfl

/-- First half of the contraction: the accumulator is reset to the zero block and then receives the product of the
    operand blocks. -/
theorem acc_first (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x2048 .bf16) (x1 : Vec F S1024x2048 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin]
  simp only [View.readAt_eq_ld, h3.read_unread, h4.read_unread, View.ld_unit_zero (S := S1024x2048) origin,
    View.ld_unit_zero (S := S1024x1024) origin, View.readCov_unit_zero (S := S1024x1024) _ origin]

/-- Second half of the contraction: the accumulator receives the product of the operand blocks on top of what it
    held. -/
theorem acc_second (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero origin]
  simp only [View.readAt_eq_ld, h3.read_unread, h4.read_unread, h7.read_unread, View.ld_unit_zero (S := S1024x2048) origin,
    View.ld_unit_zero (S := S1024x1024) origin]

/-- Second half of the contraction: the output block is the finished accumulator plus the bias row. -/
theorem out_second (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x2048 .bf16) (x1 : Vec F S1024x2048 .bf16) (x2 : Vec F S1x1024 .f32) (xs0 : Vec F S1024x1024 .f32) :
    out0_B_3 c i a3 h3 a4 h4 a5 h5 a6 h6 a7 h7 hc0 hc1 x0 x1 x2 xs0 = k0_pay3 (k0_pay2 x0 x1 xs0) x2 := by
  unfold out0_B_3
  rw [View.read_writes_eq_canon _ _ _ (cover0_B_3 c i a3 h3 a4 h4 a5 h5 a6 h6 a7 h7 hc0 hc1 x0 x1 x2 xs0)]
  unfold kernelRun0_B
  dsimp only
  sl_unfold_words
  rw [View.canon_unit_zero origin]
  simp only [View.readAt_eq_ld, h3.read_unread, h4.read_unread, h5.read_unread, h7.read_unread,
    View.ld_unit_zero (S := S1024x2048) origin, View.ld_unit_zero (S := S1024x1024) origin,
    View.ld_unit_zero (S := S1x1024) origin, View.readCov_unit_zero (S := S1024x1024) _ origin]

end Cert.KernelIdeal.BodyCases

end
-- ==== Proof.BodyAtIndex.lean ====
/-
  The body's three stored values of the idealized kernel read at one entry, over the extended reals.

    * the reset value is 0 everywhere;
    * the accumulation at row `p`, column `q` is the old accumulator entry plus
      `Σ_{k<2048} x[p, k] · w[q, k]`: the matrix unit contracts the second axis of both operand blocks and adds
      into a zero block, and the body then adds the old accumulator;
    * the output at row `p`, column `q` is the finished accumulator entry plus the bias entry of column `q` (the
      one-row bias block is repeated down the rows).
-/
import proofs.«107363_j15367392985733_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.BodyAtIndex

open Cert.KernelIdeal Cert.KernelIdeal.Gen

/-- The reset value: zero at every entry. -/
theorem reset_apply (j : S1024x1024.Idx) : k0_pay1 (F := Ideal) j = 0 := by
  unfold k0_pay1
  rw [shapeCast_self]
  exact Ideal.ofBits_zero_f32

/-! The operand indices of the block product: entry (p, q) of the result pairs row `p` of the left block with row
    `q` of the right block, both read along their second axis. -/

theorem lhs_row (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem lhs_col (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
theorem rhs_row (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem rhs_col (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The accumulation at entry (p, q): the old entry plus the inner product of row `p` of the left block with row `q`
    of the right block. -/
theorem accumulate_apply (x0 x1 : Vec Ideal S1024x2048 .bf16) (acc : Vec Ideal S1024x1024 .f32) (p q : Fin 1024) :
    k0_pay2 (F := Ideal) x0 x1 acc (ix2 p q) = acc (ix2 p q) + ∑ k : Fin 2048, x0 (ix2 p k) * x1 (ix2 q k) := by
  unfold k0_pay2
  rw [shapeCast_self, shapeCast_self, shapeCast_self]
  refine (addf_apply _ _ _).trans (congrArg (acc (ix2 p q) + ·) ?_)
  simp only [matmul]
  rw [Ideal.matmul_constant_zero_apply, ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 p q) ((contrEquiv1 dot_S1024x2048_S1024x2048_S1024x1024_1_1_0_0_n_n 2048 rfl rfl).symm k) = ix2 p k := funext fun a => Fin.ext (by
    match a with
    | ⟨0, _⟩ => exact lhs_row _ _
    | ⟨1, _⟩ => exact (lhs_col _ _).trans hk)
  have er : dot_S1024x2048_S1024x2048_S1024x1024_1_1_0_0_n_n.rhsIdx (ix2 p q) ((contrEquiv1 dot_S1024x2048_S1024x2048_S1024x1024_1_1_0_0_n_n 2048 rfl rfl).symm k) = ix2 q k := funext fun a => Fin.ext (by
    match a with
    | ⟨0, _⟩ => exact rhs_row _ _
    | ⟨1, _⟩ => exact (rhs_col _ _).trans hk)
  rw [el, er]

/-- The output at entry (p, q): the finished accumulator entry plus the bias entry of column `q`. -/
theorem output_apply (a : Vec Ideal S1024x1024 .f32) (b : Vec Ideal S1x1024 .f32) (p q : Fin 1024) :
    k0_pay3 (F := Ideal) a b (ix2 p q) = a (ix2 p q) + b (ix2 0 q) := by
  unfold k0_pay3
  rw [shapeCast_self]
  refine (addf_apply _ _ _).trans (congrArg (a (ix2 p q) + ·) ?_)
  exact broadcastTo_apply b broadcasts_S1x1024_S1024x1024 (ix2 p q) (ix2 0 q) (fun d => match d with
    | ⟨0, _⟩ => by show 0 = if (1 : Nat) = 1 then 0 else _; rw [if_pos rfl]
    | ⟨1, _⟩ => by show q.val = if (1024 : Nat) = 1 then 0 else q.val; rw [if_neg (by decide)])

end Cert.KernelIdeal.BodyAtIndex

end
-- ==== Proof.SumHalves.lean ====
/-
  The one algebraic law of this certificate, on the extended reals: a sum over 4096 terms is the sum of its first
  2048 terms, started from zero, followed by the sum of its last 2048 terms. Addition on the extended reals is
  commutative and associative with neutral element 0 (the conventions at the infinities do not disturb that), so no
  finiteness of the terms is needed.
-/
import Idealize.ShloMosaic.PureOps.Ideal

open scoped BigOperators

namespace Cert.SumHalves

/-- Position `k` of the first half, as a position of the whole range. -/
abbrev lo (k : Fin 2048) : Fin 4096 := ⟨k.val, by have := k.isLt; omega⟩
/-- Position `k` of the second half, as a position of the whole range. -/
abbrev hi (k : Fin 2048) : Fin 4096 := ⟨2048 + k.val, by have := k.isLt; omega⟩

/-- `(0 + Σ_{k<2048} f k) + Σ_{k<2048} f (2048 + k) = Σ_{k<4096} f k` in any commutative additive monoid. -/
theorem sum_halves {M : Type*} [AddCommMonoid M] (f : Fin 4096 → M) :
    (0 + ∑ k : Fin 2048, f (lo k)) + ∑ k : Fin 2048, f (hi k) = ∑ k : Fin 4096, f k := by
  rw [zero_add]
  exact (Fin.sum_univ_add (a := 2048) (b := 2048) f).symm

/-- The form the certificate uses: a contraction of two rows in two halves started from zero, plus a constant, is the
    whole contraction plus that constant. -/
theorem dot_halves (f g : Fin 4096 → EReal) (β : EReal) :
    ((0 + ∑ k : Fin 2048, f (lo k) * g (lo k)) + ∑ k : Fin 2048, f (hi k) * g (hi k)) + β
      = (∑ k : Fin 4096, f k * g k) + β := by
  rw [sum_halves (fun k => f k * g k)]

end Cert.SumHalves
-- ==== Proof.KernelArray.lean ====
/-
  The idealized kernel's output array after the region, over the extended reals, as ONE function of the three arrays
  the region reads (the activations as an [8192, 4096] matrix `x`, the dequantised weights `w` [4096, 4096], the
  dequantised bias `b` as a [1, 4096] row):

      out[r, o] = ((0 + Σ_{k<2048} x[r, k] · w[o, k]) + Σ_{k<2048} x[r, 2048 + k] · w[o, 2048 + k]) + b[0, o].

  The grid is 8 x 4 x 2, point `t = 8·i + 2·j + h`. Output block (i, j) is written back at the odd points (h = 1)
  only. At the even point before it (same i, j, h = 0) the accumulator was reset and took the product of the
  first-half blocks; at the odd point it takes the product of the second-half blocks and the bias row is added. Block
  (i, j) of `out` is exactly that, because block (i, h) of `x` holds rows 1024·i … and columns 2048·h …, block (j, h)
  of `w` rows 1024·j … and columns 2048·h …, block (0, j) of `b` columns 1024·j …. The 32 output blocks tile the
  array, so the array ends at `out`.
-/
import proofs.«107363_j15367392985733_1_alg».proof.Proof.BodyCases
import proofs.«107363_j15367392985733_1_alg».proof.Proof.BodyAtIndex
import proofs.«107363_j15367392985733_1_alg».proof.Proof.SumHalves

noncomputable section

open Idealize.ShloMosaic Idealize.ShloMosaic.TcCoe Idealize.SL.Sem Idealize.ShloMosaic.ValueIdx
open Idealize.ShloMosaic.Pipeline (Dat)

namespace Cert.KernelIdeal.KernelArray

open Cert.KernelIdeal Cert.KernelIdeal.Gen Cert.SumHalves

variable (m : (ℓ : Loc nD τ sig) → Buf (Elt Ideal) ℓ) (ρ : Dev nD → PrngReg)

/-- The three arrays the region reads, as it finds them, at their literal types. -/
abbrev xarr (c : Dev nD) : Vec Ideal S8192x4096 .bf16 := V m c main_v18
abbrev warr (c : Dev nD) : Vec Ideal S4096x4096 .bf16 := V m c main_v19
abbrev barr (c : Dev nD) : Vec Ideal S1x4096 .f32 := V m c main_v20

/-- The blocks the body is handed at point `t`, at their literal types. -/
abbrev xblk (c : Dev nD) (t : Fin cfg0.N) : Vec Ideal S1024x2048 .bf16 := iblk m c 0 t
abbrev wblk (c : Dev nD) (t : Fin cfg0.N) : Vec Ideal S1024x2048 .bf16 := iblk m c 1 t
abbrev bblk (c : Dev nD) (t : Fin cfg0.N) : Vec Ideal S1x1024 .f32 := iblk m c 2 t

/-- One entry of the output array. -/
def entry (c : Dev nD) (r : Fin 8192) (o : Fin 4096) : EReal :=
  ((0 + ∑ k : Fin 2048, xarr m c (ix2 r (lo k)) * warr m c (ix2 o (lo k)))
    + ∑ k : Fin 2048, xarr m c (ix2 r (hi k)) * warr m c (ix2 o (hi k)))
  + barr m c (ix2 0 o)

/-- The output array. -/
def outArr (c : Dev nD) : Vec Ideal S8192x4096 .f32 := fun j => entry m c (j 0) (j 1)

/-! ## What the accumulator and the output block hold after a point -/

/-- After an even point the accumulator holds the product of that point's blocks on top of the zero block. -/
theorem acc_even (c : Dev nD) (t : Fin cfg0.N) (h0 : t.val % 2 = 0) :
    (outsAt0 m c t.val t.isLt).2 = k0_pay2 (xblk m c t) (wblk m c t) (k0_pay1 (F := Ideal)) := by
  have h1 : ¬t.val % 2 = 1 := by omega
  rw [outsAt0_A m c t h0 h1]
  dsimp only
  exact BodyCases.acc_first (F := Ideal) c (grid0.coords t) (ms0_0 t) (hs0_0 t) (ms0_1 t) (hs0_1 t) (ms0_2 t) (hs0_2 t)
    (ms0_3 t) (hs0_3 t) scM0_0 (Memref.isWhole_whole _) ((hcond0_0 t).mpr h0) (fun h => h1 ((hcond0_1 t).mp h))
    (iblk m c 0 t) (iblk m c 1 t) (iblk m c 2 t)

/-- The point before an odd point. -/
abbrev prev (t : Fin cfg0.N) : Fin cfg0.N := ⟨t.val - 1, Nat.lt_of_le_of_lt (Nat.sub_le _ _) t.isLt⟩

/-- After an odd point the output block holds: the product of the previous point's blocks on the zero block, plus
    the product of this point's blocks, plus the bias row. -/
theorem out_odd (c : Dev nD) (t : Fin cfg0.N) (h1 : t.val % 2 = 1) :
    (outsAt0 m c t.val t.isLt).1
      = k0_pay3 (k0_pay2 (xblk m c t) (wblk m c t) (k0_pay2 (xblk m c (prev t)) (wblk m c (prev t)) (k0_pay1 (F := Ideal))))
          (bblk m c t) := by
  have h0 : ¬t.val % 2 = 0 := by omega
  rw [outsAt0_B m c t h0 h1]
  dsimp only
  have hp : (prev t).val % 2 = 0 := by show (t.val - 1) % 2 = 0; omega
  rw [show (outsAt0 m c (t.val - 1) (Nat.lt_of_le_of_lt (Nat.sub_le _ _) t.isLt)).2
      = k0_pay2 (xblk m c (prev t)) (wblk m c (prev t)) (k0_pay1 (F := Ideal)) from acc_even m c (prev t) hp]
  exact BodyCases.out_second (F := Ideal) c (grid0.coords t) (ms0_0 t) (hs0_0 t) (ms0_1 t) (hs0_1 t) (ms0_2 t) (hs0_2 t)
    (ms0_3 t) (hs0_3 t) scM0_0 (Memref.isWhole_whole _) (fun h => h0 ((hcond0_0 t).mp h)) ((hcond0_1 t).mpr h1)
    (iblk m c 0 t) (iblk m c 1 t) (iblk m c 2 t) _

/-! ## The index maps over the grid -/

/-- The printed index maps at point `t = 8·i + 2·j + h`: the activations' block is (i, h), the weights' (j, h), the
    bias' (0, j), the output's (i, j) — decided over the 64 points. -/
theorem idx_facts : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = 0 ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-! ## A block entry is an array entry -/

/-- Block (i, h) of the activations holds rows 1024·i … and columns 2048·h … of the matrix. -/
theorem xblk_apply (c : Dev nD) (t : Fin cfg0.N) (p : Fin 1024) (k : Fin 2048) (r : Fin 8192) (kk : Fin 4096)
    (hr : r.val = t.val / 8 * 1024 + p.val) (hk : kk.val = t.val % 2 * 2048 + k.val) :
    xblk m c t (ix2 p k) = xarr m c (ix2 r kk) := by
  obtain ⟨e0, e1, -⟩ := idx_facts t
  show (((cfg0.win 0).blk t).view.read (Elt Ideal) (V m c main_v18)) (ix2 p k) = _
  rw [View.read_apply]
  refine congrArg (V m c main_v18) (funext fun a => Fin.ext ?_)
  match a with
  | ⟨0, _⟩ => show win0_0.index t (0 : Fin 2) * 1024 + 1 * p.val = r.val; rw [e0, hr]; omega
  | ⟨1, _⟩ => show win0_0.index t (1 : Fin 2) * 2048 + 1 * k.val = kk.val; rw [e1, hk]; omega

/-- Block (j, h) of the weights holds rows 1024·j … and columns 2048·h … of the matrix. -/
theorem wblk_apply (c : Dev nD) (t : Fin cfg0.N) (q : Fin 1024) (k : Fin 2048) (o : Fin 4096) (kk : Fin 4096)
    (ho : o.val = t.val / 2 % 4 * 1024 + q.val) (hk : kk.val = t.val % 2 * 2048 + k.val) :
    wblk m c t (ix2 q k) = warr m c (ix2 o kk) := by
  obtain ⟨-, -, e2, e3, -⟩ := idx_facts t
  show (((cfg0.win 1).blk t).view.read (Elt Ideal) (V m c main_v19)) (ix2 q k) = _
  rw [View.read_apply]
  refine congrArg (V m c main_v19) (funext fun a => Fin.ext ?_)
  match a with
  | ⟨0, _⟩ => show win0_1.index t (0 : Fin 2) * 1024 + 1 * q.val = o.val; rw [e2, ho]; omega
  | ⟨1, _⟩ => show win0_1.index t (1 : Fin 2) * 2048 + 1 * k.val = kk.val; rw [e3, hk]; omega

/-- Block (0, j) of the bias row holds columns 1024·j … of it. -/
theorem bblk_apply (c : Dev nD) (t : Fin cfg0.N) (q : Fin 1024) (o : Fin 4096)
    (ho : o.val = t.val / 2 % 4 * 1024 + q.val) :
    bblk m c t (ix2 0 q) = barr m c (ix2 0 o) := by
  obtain ⟨-, -, -, -, e4, e5, -⟩ := idx_facts t
  show (((cfg0.win 2).blk t).view.read (Elt Ideal) (V m c main_v20)) (ix2 0 q) = _
  rw [View.read_apply]
  refine congrArg (V m c main_v20) (funext fun a => Fin.ext ?_)
  match a with
  | ⟨0, _⟩ => show win0_2.index t (0 : Fin 2) * 1 + 1 * 0 = 0; rw [e4]
  | ⟨1, _⟩ => show win0_2.index t (1 : Fin 2) * 1024 + 1 * q.val = o.val; rw [e5, ho]; omega

/-! ## What an odd point writes back is its block of the output array -/

theorem flushed_eq (c : Dev nD) (t : Fin cfg0.N) (hf : (cfg0.win 3).flush t = true) :
    (dats m 0 c).flushed 3 t = ((cfg0.win 3).blk t).view.read (Elt Ideal) (outArr m c) := by
  have h1 : t.val % 2 = 1 := (flush0_3 t).mp hf
  have hN : t.val < 64 := lt_of_lt_of_eq t.isLt (show cfg0.N = 64 from N_0)
  show (cfg0.win 3).cut (grid0.coords t) ((dats m 0 c).after 3 t) = _
  rw [after0_3, out_odd m c t h1]
  funext y
  obtain ⟨p, q, rfl⟩ : ∃ (p q : Fin 1024), y = ix2 p q := ⟨y 0, y 1, eq_ix2 y⟩
  rw [View.read_apply]
  show k0_pay3 (k0_pay2 (xblk m c t) (wblk m c t) (k0_pay2 (xblk m c (prev t)) (wblk m c (prev t)) (k0_pay1 (F := Ideal))))
      (bblk m c t) (ix2 p q) = outArr m c (((cfg0.win 3).blk t).view.emb (ix2 p q))
  refine (BodyAtIndex.output_apply _ (bblk m c t) p q).trans ?_
  rw [BodyAtIndex.accumulate_apply (xblk m c t) (wblk m c t) _ p q,
    BodyAtIndex.accumulate_apply (xblk m c (prev t)) (wblk m c (prev t)) _ p q, BodyAtIndex.reset_apply]
  obtain ⟨-, -, -, -, -, -, e6, e7⟩ := idx_facts t
  have hr : ((((cfg0.win 3).blk t).view.emb (ix2 p q)) 0).val = t.val / 8 * 1024 + p.val := by
    show win0_3.index t (0 : Fin 2) * 1024 + 1 * p.val = _; rw [e6]; omega
  have ho : ((((cfg0.win 3).blk t).view.emb (ix2 p q)) 1).val = t.val / 2 % 4 * 1024 + q.val := by
    show win0_3.index t (1 : Fin 2) * 1024 + 1 * q.val = _; rw [e7]; omega
  have hp : (prev t).val = t.val - 1 := rfl
  unfold outArr entry
  have hx' : ∀ k : Fin 2048, xblk m c (prev t) (ix2 p k) = xarr m c (ix2 ((((cfg0.win 3).blk t).view.emb (ix2 p q)) 0) (lo k)) :=
    fun k => xblk_apply m c (prev t) p k _ _ (by rw [hr, hp]; omega) (by show k.val = _; rw [hp]; omega)
  have hw' : ∀ k : Fin 2048, wblk m c (prev t) (ix2 q k) = warr m c (ix2 ((((cfg0.win 3).blk t).view.emb (ix2 p q)) 1) (lo k)) :=
    fun k => wblk_apply m c (prev t) q k _ _ (by rw [ho, hp]; omega) (by show k.val = _; rw [hp]; omega)
  have hx : ∀ k : Fin 2048, xblk m c t (ix2 p k) = xarr m c (ix2 ((((cfg0.win 3).blk t).view.emb (ix2 p q)) 0) (hi k)) :=
    fun k => xblk_apply m c t p k _ _ hr (by show 2048 + k.val = _; omega)
  have hw : ∀ k : Fin 2048, wblk m c t (ix2 q k) = warr m c (ix2 ((((cfg0.win 3).blk t).view.emb (ix2 p q)) 1) (hi k)) :=
    fun k => wblk_apply m c t q k _ _ ho (by show 2048 + k.val = _; omega)
  have hb : bblk m c t (ix2 0 q) = barr m c (ix2 0 ((((cfg0.win 3).blk t).view.emb (ix2 p q)) 1)) :=
    bblk_apply m c t q _ ho
  simp only [hx', hw', hx, hw, hb]

/-! ## The output blocks tile the array -/

/-- An index of the output array lies in point `t`'s block iff each coordinate lies in the block's range. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v21).slice (win0_3.rect t)).set ↔ _
  rw [View.set_slice_whole, Rect.mem_set_unit]
  exact Iff.rfl

/-- Entry (r, o) lies in the block written back at the odd point of block row `r / 1024`, block column `o / 1024`. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  obtain ⟨t, ht⟩ : ∃ t : Fin cfg0.N, t.val = (i 0).val / 1024 * 8 + (i 1).val / 1024 * 2 + 1 :=
    ⟨⟨(i 0).val / 1024 * 8 + (i 1).val / 1024 * 2 + 1, by rw [hN]; omega⟩, rfl⟩
  obtain ⟨-, -, -, -, -, -, e6, e7⟩ := idx_facts t
  refine ⟨t, (flush0_3 t).mpr (by rw [ht]; omega), ?_⟩
  rw [mem_blk]
  intro a
  match a with
  | ⟨0, _⟩ => show win0_3.index t (0 : Fin 2) * 1024 ≤ (i 0).val ∧ (i 0).val < win0_3.index t (0 : Fin 2) * 1024 + 1024; rw [e6, ht]; omega
  | ⟨1, _⟩ => show win0_3.index t (1 : Fin 2) * 1024 ≤ (i 1).val ∧ (i 1).val < win0_3.index t (1 : Fin 2) * 1024 + 1024; rw [e7, ht]; omega

/-- The output array after the last point. -/
theorem final (c : Dev nD) : (dats m 0 c).arrAt 3 cfg0.N = outArr m c :=
  (dats m 0 c).arrAt_eq_of_cover 3 (outArr m c) (flushed_eq m c) cover

end Cert.KernelIdeal.KernelArray

end
-- ==== Proof.HostGlue.lean ====
/-
  The host operations around the region of the idealized kernel, read over the extended reals.

  Before the region the program quantises the parameters exactly as the reference does (row-wise abs-max, the scale
  `max(absmax, 2e-16) / 7`, clip to [-7, 7], round to nearest even, multiply back by the scale; the bias divided by
  the same scale, rounded, multiplied back), reshapes the activations [4, 2048, 4096] to [8192, 4096] and the bias to
  one row, and converts activations and weights to bf16, which changes nothing on the extended reals. So:
    * the weight array the region reads IS the reference's dequantised weight (the same operations on the same
      argument, the format change dropped);
    * the bias row the region reads is the reference's dequantised bias laid out as [1, 4096];
    * the activation matrix the region reads is the argument with its two leading axes merged: row 2048·b + s is
      (b, s).
  After the region the [8192, 4096] output is split back into [4, 2048, 4096].
-/
import proofs.«107363_j15367392985733_1_alg».proof.Proof.Gen.KernelIdeal.Frame
import proofs.«107363_j15367392985733_1_alg».proof.Proof.Gen.ReferenceIdeal.Read
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.HostGlue

open Cert.KernelIdeal Cert.KernelIdeal.Gen

variable (m : (ℓ : Loc nD τ sig) → Buf (Elt Ideal) ℓ)

/-- The activation matrix the region reads: the argument reshaped. -/
theorem xarr_eq (c : Dev nD) :
    (V m c main_v18 : S8192x4096.Idx → EReal)
      = shapeCast S8192x4096 (m ((c : Thread nD τ).loc main_arg0)) shapeCasts_S4x2048x4096_S8192x4096 := by
  dsimp only [V, V0]
  simp only [hostOps0, hostOps0_1, hostOps0_2, hostOps0_3, hostOps0_4, hostOps0_5, List.flatten_cons, List.flatten_nil,
    List.append_nil, List.cons_append, List.nil_append]
  after_results
  rfl

/-- Row 2048·b + s of the matrix is position (b, s) of the argument. -/
theorem xarr_apply (c : Dev nD) (b : Fin 4) (s : Fin 2048) (k : Fin 4096) (r : Fin 8192) (hr : r.val = 2048 * b.val + s.val) :
    (V m c main_v18 : S8192x4096.Idx → EReal) (ix2 r k) = m ((c : Thread nD τ).loc main_arg0) (ix3 b s k) := by
  rw [xarr_eq]
  exact shapeCast_apply _ shapeCasts_S4x2048x4096_S8192x4096 (ix2 r k) (ix3 b s k) (by
    rw [Shape.rowMajor_val_three, Shape.rowMajor_val_two]
    show (b.val * 2048 + s.val) * 4096 + k.val = r.val * 4096 + k.val
    rw [hr]; ring)

set_option maxHeartbeats 2000000 in
/-- The weight array the region reads is the reference's dequantised weight. -/
theorem warr_eq (c : Dev nD) :
    (V m c main_v19 : S4096x4096.Idx → EReal)
      = Cert.ReferenceIdeal.Read.val_main_v12 (F := Ideal) (m ((c : Thread nD τ).loc main_arg1)) := by
  dsimp only [V, V0]
  simp only [hostOps0, hostOps0_1, hostOps0_2, hostOps0_3, hostOps0_4, hostOps0_5, List.flatten_cons, List.flatten_nil,
    List.append_nil, List.cons_append, List.nil_append]
  after_results_simp <;> rfl

set_option maxHeartbeats 2000000 in
/-- The bias row the region reads is the reference's dequantised bias as one row. -/
theorem barr_eq (c : Dev nD) :
    (V m c main_v20 : S1x4096.Idx → EReal)
      = shapeCast S1x4096 (Cert.ReferenceIdeal.Read.val_main_v16 (F := Ideal) (m ((c : Thread nD τ).loc main_arg1)) (m ((c : Thread nD τ).loc main_arg2))) shapeCasts_S4096_S1x4096 := by
  dsimp only [V, V0]
  simp only [hostOps0, hostOps0_1, hostOps0_2, hostOps0_3, hostOps0_4, hostOps0_5, List.flatten_cons, List.flatten_nil,
    List.append_nil, List.cons_append, List.nil_append]
  after_results_simp <;> rfl

/-- Column `o` of the bias row is entry `o` of the dequantised bias. -/
theorem barr_apply (c : Dev nD) (o : Fin 4096) :
    (V m c main_v20 : S1x4096.Idx → EReal) (ix2 0 o)
      = Cert.ReferenceIdeal.Read.val_main_v16 (F := Ideal) (m ((c : Thread nD τ).loc main_arg1)) (m ((c : Thread nD τ).loc main_arg2)) (ix1 o) := by
  rw [barr_eq]
  exact shapeCast_apply _ shapeCasts_S4096_S1x4096 (ix2 0 o) (ix1 o) (by
    rw [Shape.rowMajor_val_one, Shape.rowMajor_val_two]
    show o.val = 0 * 4096 + o.val
    omega)

/-- After the region: the program's result is the region's output array with its rows split into (b, s). -/
theorem result_eq (c : Dev nD) :
    (Pipeline.afterTail₀ cfgs (dats m) 0 (V0 m) [hostOps1] c main_v22 : S4x2048x4096.Idx → EReal)
      = shapeCast S4x2048x4096 ((dats m 0 c).arrAt 3 cfg0.N : S8192x4096.Idx → EReal) shapeCasts_S8192x4096_S4x2048x4096 := by
  unfold Pipeline.afterTail₀
  show StableHlo.after hostOps1 _ (Proc.devRef .tc main_v22) = _
  after_results
  have e := Pipeline.withArrays_arr spec0 launch0.win.arr_inj c (V0 m c) (fun w => (dats m 0 c).arrAt w cfg0.N) 3
  rw [e]
  rfl

end Cert.KernelIdeal.HostGlue

end
-- ==== Proof.KernelRun.lean ====
/-
  The idealized kernel's run, read as a value: the program's result is the reference's function of the three
  arguments.

  Entry (b, s, o) of the result is entry (2048·b + s, o) of the region's output array,

      ((0 + Σ_{k<2048} x[b, s, k] · w[o, k]) + Σ_{k<2048} x[b, s, 2048 + k] · w[o, 2048 + k]) + bias[o],

  with `w` and `bias` the dequantised parameters the reference computes too. The two half sums started from zero are
  the whole sum over k < 4096 (addition on the extended reals is associative with neutral element 0), which is the
  reference's contraction of x with w along their last axes; adding bias[o] is the reference's broadcast add.
-/
import proofs.«107363_j15367392985733_1_alg».proof.Proof.KernelArray
import proofs.«107363_j15367392985733_1_alg».proof.Proof.HostGlue

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.SumHalves

variable (m : (ℓ : Loc nD τ sig) → Buf (Elt Ideal) ℓ) (ρ : Dev nD → PrngReg)

/-- The reference's result as a function of this program's three arguments. -/
abbrev refResult (c : Dev nD) : S4x2048x4096.Idx → EReal :=
  Cert.ReferenceIdeal.Read.val_main_v20 (F := Ideal) (m ((c : Thread nD τ).loc main_arg0))
    (m ((c : Thread nD τ).loc main_arg1)) (m ((c : Thread nD τ).loc main_arg2))

/-- One entry: the kernel's two half sums and bias are the reference's whole contraction and bias. -/
theorem entry_eq (c : Dev nD) (b : Fin 4) (s : Fin 2048) (o : Fin 4096) (r : Fin 8192) (hr : r.val = 2048 * b.val + s.val) :
    KernelArray.entry m c r o = refResult m c (ix3 b s o) := by
  unfold KernelArray.entry
  have hx : ∀ kk : Fin 4096, KernelArray.xarr m c (ix2 r kk) = m ((c : Thread nD τ).loc main_arg0) (ix3 b s kk) :=
    fun kk => HostGlue.xarr_apply m c b s kk r hr
  have hw : KernelArray.warr m c = Cert.ReferenceIdeal.Read.val_main_v12 (F := Ideal) (m ((c : Thread nD τ).loc main_arg1)) :=
    HostGlue.warr_eq m c
  have hb : KernelArray.barr m c (ix2 0 o) = Cert.ReferenceIdeal.Read.val_main_v16 (F := Ideal) (m ((c : Thread nD τ).loc main_arg1)) (m ((c : Thread nD τ).loc main_arg2)) (ix1 o) :=
    HostGlue.barr_apply m c o
  simp only [hx]
  rw [hw, hb]
  refine (dot_halves (fun kk => m ((c : Thread nD τ).loc main_arg0) (ix3 b s kk))
    (fun kk => Cert.ReferenceIdeal.Read.val_main_v12 (F := Ideal) (m ((c : Thread nD τ).loc main_arg1)) (ix2 o kk)) _).trans ?_
  unfold refResult
  rw [Cert.ReferenceIdeal.Read.val_main_v20_apply, Cert.ReferenceIdeal.Read.val_main_v17_apply,
    Cert.ReferenceIdeal.Read.val_main_v19_apply, Cert.ReferenceIdeal.Read.val_main_v18_apply]
  have el : ∀ k : Fin 4096, Cert.ReferenceIdeal.Read.lidx_main_v17 (ix3 b s o) k = ix3 b s k := fun k =>
    funext fun a => by match a with | ⟨0, _⟩ => rfl | ⟨1, _⟩ => rfl | ⟨2, _⟩ => rfl
  have er : ∀ k : Fin 4096, Cert.ReferenceIdeal.Read.ridx_main_v17 (ix3 b s o) k = ix2 o k := fun k =>
    funext fun a => by match a with | ⟨0, _⟩ => rfl | ⟨1, _⟩ => rfl
  have eb : Cert.ReferenceIdeal.Read.idx_main_v18 (Cert.ReferenceIdeal.Read.idx_main_v19 (ix3 b s o)) = ix1 o :=
    funext fun a => by match a with | ⟨0, _⟩ => rfl
  simp only [el, er, eb]
  rfl

/-- The region's output array, its rows split into (b, s), is the reference's result. -/
theorem result_fun (c : Dev nD) :
    shapeCast S4x2048x4096 (KernelArray.outArr m c) shapeCasts_S8192x4096_S4x2048x4096 = refResult m c := by
  funext i
  obtain ⟨b, s, o, rfl⟩ : ∃ (b : Fin 4) (s : Fin 2048) (o : Fin 4096), i = ix3 b s o := ⟨i 0, i 1, i 2, eq_ix3 i⟩
  have hr : 2048 * b.val + s.val < 8192 := by have := b.isLt; have := s.isLt; omega
  rw [shapeCast_apply (KernelArray.outArr m c) shapeCasts_S8192x4096_S4x2048x4096 (ix3 b s o) (ix2 ⟨2048 * b.val + s.val, hr⟩ o) (by
    rw [Shape.rowMajor_val_two, Shape.rowMajor_val_three]
    show (2048 * b.val + s.val) * 4096 + o.val = (b.val * 2048 + s.val) * 4096 + o.val
    ring)]
  exact entry_eq m c b s o _ rfl

/-- The run: the result at the reference's function of the arguments, the arguments unchanged. -/
theorem run : θ_run defs (onTc (τ := τ) (main (F := Ideal))) ⟨m, fun _ => 0, ρ⟩ fun r => ∀ c : Dev nD,
      r.2.mem ((c : Thread nD τ).loc main_v22) = refResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v22 (Pipeline.mem_restRefs_of main_v22 (by decide) (by decide))).trans
        ((HostGlue.result_eq m c).trans (by rw [KernelArray.final]; exact result_fun m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.lean ====
/-
  A 4-bit weight-quantised linear layer, y = x · W_qᵀ + b_q, as a Pallas matmul kernel against its jnp reference.

  Both programs quantise the parameters with the same host operations: per output channel the scale is
  max(absmax of the row, 2e-16) / 7; W_q = round(clip(W / scale, -7, 7)) · scale; b_q = round(b / scale) · scale.
  The reference then contracts x [4, 2048, 4096] with W_q [4096, 4096] along their last axes and adds b_q.
  The kernel flattens x to [8192, 4096], converts x and W_q to bf16 (the identity on the extended reals), and runs a
  grid of 8 x 4 x 2 points: output block (i, j) of [1024, 1024] is accumulated over the two halves of the
  contraction axis in a scratch block, reset to zero at the first half, and written with the bias row added at the
  second half; the [8192, 4096] result is reshaped back.

  Over the extended reals entry (b, s, o) of the kernel's result is
      ((0 + Σ_{k<2048} x[b,s,k] · W_q[o,k]) + Σ_{k<2048} x[b,s,2048+k] · W_q[o,2048+k]) + b_q[o]
  and the reference's is  Σ_{k<4096} x[b,s,k] · W_q[o,k] + b_q[o]:  equal because addition on the extended reals is
  associative and commutative with neutral element 0 — no finiteness of the inputs is used.

  Modules: SumHalves (that law), BodyCases (what each branch of the body leaves in the accumulator and the output
  block), BodyAtIndex (those values at one entry), KernelArray (the region's output array as one function of the
  arrays it reads), HostGlue (the host operations around the region; the quantised parameters are the reference's),
  KernelRun (the kernel's result is the reference's function of the arguments). The frames of the two kernel
  programs are the generated ones; the reference's frame and value are its generated run. The idealization rewrote
  nothing, so there is nothing to preserve.
-/
import proofs.«107363_j15367392985733_1_alg».proof.Defs
import proofs.«107363_j15367392985733_1_alg».proof.Proof.Gen.Kernel
import proofs.«107363_j15367392985733_1_alg».proof.Proof.Gen.Kernel.Skeleton
import proofs.«107363_j15367392985733_1_alg».proof.Proof.Gen.Kernel.Launch
import proofs.«107363_j15367392985733_1_alg».proof.Proof.Gen.Kernel.Points
import proofs.«107363_j15367392985733_1_alg».proof.Proof.Gen.Kernel.Frame
import proofs.«107363_j15367392985733_1_alg».proof.Proof.Gen.KernelIdeal
import proofs.«107363_j15367392985733_1_alg».proof.Proof.Gen.KernelIdeal.Skeleton
import proofs.«107363_j15367392985733_1_alg».proof.Proof.Gen.KernelIdeal.Launch
import proofs.«107363_j15367392985733_1_alg».proof.Proof.Gen.KernelIdeal.Points
import proofs.«107363_j15367392985733_1_alg».proof.Proof.Gen.KernelIdeal.Frame
import proofs.«107363_j15367392985733_1_alg».proof.Proof.Gen.ReferenceIdeal
import proofs.«107363_j15367392985733_1_alg».proof.Proof.Gen.ReferenceIdeal.Run
import proofs.«107363_j15367392985733_1_alg».proof.Proof.Gen.ReferenceIdeal.Read
import proofs.«107363_j15367392985733_1_alg».proof.Proof.Gen.Pre_finite_inputs
import proofs.«107363_j15367392985733_1_alg».proof.Proof.KernelRun
import Idealize.ShloMosaic.Adequacy
import Idealize.ShloMosaic.Init

noncomputable section

namespace Cert.Proof

open Idealize.ShloMosaic Idealize.SL.Sem

/-- The word-level kernel terminates without a fault and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: it runs, and writes none of its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the three arguments both programs end with the same result: the reference's
    function of the arguments — for the kernel by `KernelRun.run`, for the reference by its own run, read one
    operation at a time. -/
theorem algebraic : Cert.algebraic_KernelIdeal_ReferenceIdeal := by
  intro m ρ m' ρ' _ hagree
  refine ⟨fun c => Cert.KernelIdeal.KernelRun.refResult m c, Cert.KernelIdeal.KernelRun.run m ρ, ?_⟩
  refine (θ_run Cert.ReferenceIdeal.defs _ _).mono
    (fun _ h c => ⟨(h c).1.trans ((Cert.ReferenceIdeal.Read.val_main_v20_eq _ _ _).trans ?_), (h c).2⟩)
    (Cert.ReferenceIdeal.Value.run (F := Ideal) m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
